-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S1x32 : Shape := ⟨2, ![1, 32]⟩
abbrev S50176x64 : Shape := ⟨2, ![50176, 64]⟩
abbrev S784x64x64 : Shape := ⟨3, ![784, 64, 64]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S1x32 : S_.BroadcastsInDim S1x32 (![] : Fin 0 → Fin S1x32.rank)
  reducesTo_S1x32_S_d0_1 : S1x32.ReducesTo [0, 1] S_
  bcast_S_S50176x64 : S_.BroadcastsInDim S50176x64 (![] : Fin 0 → Fin S50176x64.rank)
  reducesTo_S50176x64_S_d0_1 : S50176x64.ReducesTo [0, 1] S_
  bcast_S_S784x64x64 : S_.BroadcastsInDim S784x64x64 (![] : Fin 0 → Fin S784x64x64.rank)
  reducesTo_S784x64x64_S_d0_1_2 : S784x64x64.ReducesTo [0, 1, 2] S_

variable [Facts]

def fn_part1 {F : FTy → Type} [FloatOps F] (main_v13 : IVec S_ 1) (main_v16 : IVec S784x64x64 1) : IVec S_ 1 :=
  let main_c_5 : IVec S_ 1 := constantI S_ 1 1#1
  let main_v17 : IVec S_ 1 := (fun x v => Host.reduce IntOp.andi x v reducesTo_S784x64x64_S_d0_1_2 h_S_) main_v16 main_c_5
  let main_v18 : IVec S_ 1 := andi main_v13 main_v17
  main_v18

def fn {F : FTy → Type} [FloatOps F] (main_arg0 : FVec F S2048 .f32) (main_arg1 : FVec F S1x32 .f32) (main_arg2 : FVec F S50176x64 .f32) (main_arg3 : FVec F S784x64x64 .f32) : IVec S_ 1 :=
  let main_v0 : FVec F S2048 .f32 := Host.absf main_arg0
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S1x32 .f32 := Host.absf main_arg1
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S50176x64 .f32 := Host.absf main_arg2
  let main_cst_2 : FVec F S_ .f32 := constant S_ .f32 0x7F800000#32
  let main_v10 : FVec F S50176x64 .f32 := broadcastInDim S50176x64 ![] bcast_S_S50176x64 main_cst_2
  let main_v11 : IVec S50176x64 1 := cmpf .olt main_v9 main_v10
  let main_c_3 : IVec S_ 1 := constantI S_ 1 1#1
  let main_v12 : IVec S_ 1 := (fun x v => Host.reduce IntOp.andi x v reducesTo_S50176x64_S_d0_1 h_S_) main_v11 main_c_3
  let main_v13 : IVec S_ 1 := andi main_v8 main_v12
  let main_v14 : FVec F S784x64x64 .f32 := Host.absf main_arg3
  let main_cst_4 : FVec F S_ .f32 := constant S_ .f32 0x7F800000#32
  let main_v15 : FVec F S784x64x64 .f32 := broadcastInDim S784x64x64 ![] bcast_S_S784x64x64 main_cst_4
  let main_v16 : IVec S784x64x64 1 := cmpf .olt main_v14 main_v15
  fn_part1 (F := F) main_v13 main_v16
-- ==== Kernel.lean ====
abbrev S2048 : Shape := ⟨1, ![2048]⟩
abbrev S1x32 : Shape := ⟨2, ![1, 32]⟩
abbrev S50176x64 : Shape := ⟨2, ![50176, 64]⟩
abbrev S784x64x64 : Shape := ⟨3, ![784, 64, 64]⟩
abbrev S2048x1 : Shape := ⟨2, ![2048, 1]⟩
abbrev S_ : Shape := ⟨0, ![]⟩
abbrev S32 : Shape := ⟨1, ![32]⟩
abbrev S2048x32 : Shape := ⟨2, ![2048, 32]⟩
abbrev S2048x64 : Shape := ⟨2, ![2048, 64]⟩
abbrev S784x2048x64 : Shape := ⟨3, ![784, 2048, 64]⟩
abbrev S1792x64 : Shape := ⟨2, ![1792, 64]⟩
abbrev S28x64x64 : Shape := ⟨3, ![28, 64, 64]⟩
abbrev S28x2048x64 : Shape := ⟨3, ![28, 2048, 64]⟩
abbrev S2048x1792 : Shape := ⟨2, ![2048, 1792]⟩
abbrev S1x64x64 : Shape := ⟨3, ![1, 64, 64]⟩
abbrev S64x64 : Shape := ⟨2, ![64, 64]⟩
abbrev S1x2048x64 : Shape := ⟨3, ![1, 2048, 64]⟩

abbrev nBuf : Space → Nat
  | .hbm => 17
  | .vmem => 7
  | .smem => 0
  | _ => 0

abbrev bufTy : (tb : Table) → Fin (tcTables nBuf tb) → BufTy
  | .hbm, ⟨0, _⟩ => ⟨S2048, .f32⟩
  | .hbm, ⟨1, _⟩ => ⟨S1x32, .f32⟩
  | .hbm, ⟨2, _⟩ => ⟨S50176x64, .f32⟩
  | .hbm, ⟨3, _⟩ => ⟨S784x64x64, .f32⟩
  | .hbm, ⟨4, _⟩ => ⟨S2048x1, .f32⟩
  | .hbm, ⟨5, _⟩ => ⟨S_, .f32⟩
  | .hbm, ⟨6, _⟩ => ⟨S2048x1, .f32⟩
  | .hbm, ⟨7, _⟩ => ⟨S2048x1, .f32⟩
  | .hbm, ⟨8, _⟩ => ⟨S32, .f32⟩
  | .hbm, ⟨9, _⟩ => ⟨S1x32, .f32⟩
  | .hbm, ⟨10, _⟩ => ⟨S2048x32, .f32⟩
  | .hbm, ⟨11, _⟩ => ⟨S2048x32, .f32⟩
  | .hbm, ⟨12, _⟩ => ⟨S2048x32, .f32⟩
  | .hbm, ⟨13, _⟩ => ⟨S2048x32, .f32⟩
  | .hbm, ⟨14, _⟩ => ⟨S2048x32, .f32⟩
  | .hbm, ⟨15, _⟩ => ⟨S2048x64, .f32⟩
  | .hbm, ⟨16, _⟩ => ⟨S784x2048x64, .f32⟩
  | .local _ .vmem, ⟨0, _⟩ => ⟨S2048x64, .f32⟩
  | .local _ .vmem, ⟨1, _⟩ => ⟨S1792x64, .f32⟩
  | .local _ .vmem, ⟨2, _⟩ => ⟨S1792x64, .f32⟩
  | .local _ .vmem, ⟨3, _⟩ => ⟨S28x64x64, .f32⟩
  | .local _ .vmem, ⟨4, _⟩ => ⟨S28x64x64, .f32⟩
  | .local _ .vmem, ⟨5, _⟩ => ⟨S28x2048x64, .f32⟩
  | .local _ .vmem, ⟨6, _⟩ => ⟨S28x2048x64, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S28x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S2048_S2048x1_0 : S2048.BroadcastsInDim S2048x1 (![0] : Fin 1 → Fin S2048x1.rank)
  bcast_S_S2048x1 : S_.BroadcastsInDim S2048x1 (![] : Fin 0 → Fin S2048x1.rank)
  shapeCasts_S1x32_S32 : S1x32.ShapeCasts S32
  bcast_S32_S1x32_1 : S32.BroadcastsInDim S1x32 (![1] : Fin 1 → Fin S1x32.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  concatenates_S2048x32_S2048x32_S2048x64_d1 : Shape.Concatenates [S2048x32, S2048x32] S2048x64 1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S1792x64_S1792x64_0_0 : ∀ a, (![0, 0] : Fin 2 → Nat) a + S1792x64.size a ≤ S1792x64.size a
  h_S1792x64 : 0 < S1792x64.numel
  slices_S2048x1792_o0_0_S2048x64 : S2048x1792.Slices ![0, 0] S2048x64
  inb_S28x64x64_S1x64x64_0_0_0 : ∀ a, (![0, 0, 0] : Fin 3 → Nat) a + S1x64x64.size a ≤ S28x64x64.size a
  h_S1x64x64 : 0 < S1x64x64.numel
  shapeCasts_S1x64x64_S64x64 : S1x64x64.ShapeCasts S64x64
  inb_S28x2048x64_S1x2048x64_0_0_0 : ∀ a, (![0, 0, 0] : Fin 3 → Nat) a + S1x2048x64.size a ≤ S28x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  slices_S2048x1792_o0_64_S2048x64 : S2048x1792.Slices ![0, 64] S2048x64
  inb_S28x64x64_S1x64x64_1_0_0 : ∀ a, (![1, 0, 0] : Fin 3 → Nat) a + S1x64x64.size a ≤ S28x64x64.size a
  inb_S28x2048x64_S1x2048x64_1_0_0 : ∀ a, (![1, 0, 0] : Fin 3 → Nat) a + S1x2048x64.size a ≤ S28x2048x64.size a
  slices_S2048x1792_o0_128_S2048x64 : S2048x1792.Slices ![0, 128] S2048x64
  inb_S28x64x64_S1x64x64_2_0_0 : ∀ a, (![2, 0, 0] : Fin 3 → Nat) a + S1x64x64.size a ≤ S28x64x64.size a
  inb_S28x2048x64_S1x2048x64_2_0_0 : ∀ a, (![2, 0, 0] : Fin 3 → Nat) a + S1x2048x64.size a ≤ S28x2048x64.size a
  slices_S2048x1792_o0_192_S2048x64 : S2048x1792.Slices ![0, 192] S2048x64
  inb_S28x64x64_S1x64x64_3_0_0 : ∀ a, (![3, 0, 0] : Fin 3 → Nat) a + S1x64x64.size a ≤ S28x64x64.size a
  inb_S28x2048x64_S1x2048x64_3_0_0 : ∀ a, (![3, 0, 0] : Fin 3 → Nat) a + S1x2048x64.size a ≤ S28x2048x64.size a
  slices_S2048x1792_o0_256_S2048x64 : S2048x1792.Slices ![0, 256] S2048x64
  inb_S28x64x64_S1x64x64_4_0_0 : ∀ a, (![4, 0, 0] : Fin 3 → Nat) a + S1x64x64.size a ≤ S28x64x64.size a
  inb_S28x2048x64_S1x2048x64_4_0_0 : ∀ a, (![4, 0, 0] : Fin 3 → Nat) a + S1x2048x64.size a ≤ S28x2048x64.size a
  slices_S2048x1792_o0_320_S2048x64 : S2048x1792.Slices ![0, 320] S2048x64
  inb_S28x64x64_S1x64x64_5_0_0 : ∀ a, (![5, 0, 0] : Fin 3 → Nat) a + S1x64x64.size a ≤ S28x64x64.size a
  inb_S28x2048x64_S1x2048x64_5_0_0 : ∀ a, (![5, 0, 0] : Fin 3 → Nat) a + S1x2048x64.size a ≤ S28x2048x64.size a
  slices_S2048x1792_o0_384_S2048x64 : S2048x1792.Slices ![0, 384] S2048x64
  inb_S28x64x64_S1x64x64_6_0_0 : ∀ a, (![6, 0, 0] : Fin 3 → Nat) a + S1x64x64.size a ≤ S28x64x64.size a
  inb_S28x2048x64_S1x2048x64_6_0_0 : ∀ a, (![6, 0, 0] : Fin 3 → Nat) a + S1x2048x64.size a ≤ S28x2048x64.size a
  slices_S2048x1792_o0_448_S2048x64 : S2048x1792.Slices ![0, 448] S2048x64
  inb_S28x64x64_S1x64x64_7_0_0 : ∀ a, (![7, 0, 0] : Fin 3 → Nat) a + S1x64x64.size a ≤ S28x64x64.size a
  inb_S28x2048x64_S1x2048x64_7_0_0 : ∀ a, (![7, 0, 0] : Fin 3 → Nat) a + S1x2048x64.size a ≤ S28x2048x64.size a
  slices_S2048x1792_o0_512_S2048x64 : S2048x1792.Slices ![0, 512] S2048x64
  inb_S28x64x64_S1x64x64_8_0_0 : ∀ a, (![8, 0, 0] : Fin 3 → Nat) a + S1x64x64.size a ≤ S28x64x64.size a
  inb_S28x2048x64_S1x2048x64_8_0_0 : ∀ a, (![8, 0, 0] : Fin 3 → Nat) a + S1x2048x64.size a ≤ S28x2048x64.size a
  slices_S2048x1792_o0_576_S2048x64 : S2048x1792.Slices ![0, 576] S2048x64
  inb_S28x64x64_S1x64x64_9_0_0 : ∀ a, (![9, 0, 0] : Fin 3 → Nat) a + S1x64x64.size a ≤ S28x64x64.size a
  inb_S28x2048x64_S1x2048x64_9_0_0 : ∀ a, (![9, 0, 0] : Fin 3 → Nat) a + S1x2048x64.size a ≤ S28x2048x64.size a
  slices_S2048x1792_o0_640_S2048x64 : S2048x1792.Slices ![0, 640] S2048x64
  inb_S28x64x64_S1x64x64_10_0_0 : ∀ a, (![10, 0, 0] : Fin 3 → Nat) a + S1x64x64.size a ≤ S28x64x64.size a
  inb_S28x2048x64_S1x2048x64_10_0_0 : ∀ a, (![10, 0, 0] : Fin 3 → Nat) a + S1x2048x64.size a ≤ S28x2048x64.size a
  slices_S2048x1792_o0_704_S2048x64 : S2048x1792.Slices ![0, 704] S2048x64
  inb_S28x64x64_S1x64x64_11_0_0 : ∀ a, (![11, 0, 0] : Fin 3 → Nat) a + S1x64x64.size a ≤ S28x64x64.size a
  inb_S28x2048x64_S1x2048x64_11_0_0 : ∀ a, (![11, 0, 0] : Fin 3 → Nat) a + S1x2048x64.size a ≤ S28x2048x64.size a
  slices_S2048x1792_o0_768_S2048x64 : S2048x1792.Slices ![0, 768] S2048x64
  inb_S28x64x64_S1x64x64_12_0_0 : ∀ a, (![12, 0, 0] : Fin 3 → Nat) a + S1x64x64.size a ≤ S28x64x64.size a
  inb_S28x2048x64_S1x2048x64_12_0_0 : ∀ a, (![12, 0, 0] : Fin 3 → Nat) a + S1x2048x64.size a ≤ S28x2048x64.size a
  slices_S2048x1792_o0_832_S2048x64 : S2048x1792.Slices ![0, 832] S2048x64
  inb_S28x64x64_S1x64x64_13_0_0 : ∀ a, (![13, 0, 0] : Fin 3 → Nat) a + S1x64x64.size a ≤ S28x64x64.size a
  inb_S28x2048x64_S1x2048x64_13_0_0 : ∀ a, (![13, 0, 0] : Fin 3 → Nat) a + S1x2048x64.size a ≤ S28x2048x64.size a
  slices_S2048x1792_o0_896_S2048x64 : S2048x1792.Slices ![0, 896] S2048x64
  inb_S28x64x64_S1x64x64_14_0_0 : ∀ a, (![14, 0, 0] : Fin 3 → Nat) a + S1x64x64.size a ≤ S28x64x64.size a
  inb_S28x2048x64_S1x2048x64_14_0_0 : ∀ a, (![14, 0, 0] : Fin 3 → Nat) a + S1x2048x64.size a ≤ S28x2048x64.size a
  slices_S2048x1792_o0_960_S2048x64 : S2048x1792.Slices ![0, 960] S2048x64
  inb_S28x64x64_S1x64x64_15_0_0 : ∀ a, (![15, 0, 0] : Fin 3 → Nat) a + S1x64x64.size a ≤ S28x64x64.size a
  inb_S28x2048x64_S1x2048x64_15_0_0 : ∀ a, (![15, 0, 0] : Fin 3 → Nat) a + S1x2048x64.size a ≤ S28x2048x64.size a
  slices_S2048x1792_o0_1024_S2048x64 : S2048x1792.Slices ![0, 1024] S2048x64
  inb_S28x64x64_S1x64x64_16_0_0 : ∀ a, (![16, 0, 0] : Fin 3 → Nat) a + S1x64x64.size a ≤ S28x64x64.size a
  inb_S28x2048x64_S1x2048x64_16_0_0 : ∀ a, (![16, 0, 0] : Fin 3 → Nat) a + S1x2048x64.size a ≤ S28x2048x64.size a
  slices_S2048x1792_o0_1088_S2048x64 : S2048x1792.Slices ![0, 1088] S2048x64
  inb_S28x64x64_S1x64x64_17_0_0 : ∀ a, (![17, 0, 0] : Fin 3 → Nat) a + S1x64x64.size a ≤ S28x64x64.size a
  inb_S28x2048x64_S1x2048x64_17_0_0 : ∀ a, (![17, 0, 0] : Fin 3 → Nat) a + S1x2048x64.size a ≤ S28x2048x64.size a
  slices_S2048x1792_o0_1152_S2048x64 : S2048x1792.Slices ![0, 1152] S2048x64
  inb_S28x64x64_S1x64x64_18_0_0 : ∀ a, (![18, 0, 0] : Fin 3 → Nat) a + S1x64x64.size a ≤ S28x64x64.size a
  inb_S28x2048x64_S1x2048x64_18_0_0 : ∀ a, (![18, 0, 0] : Fin 3 → Nat) a + S1x2048x64.size a ≤ S28x2048x64.size a
  slices_S2048x1792_o0_1216_S2048x64 : S2048x1792.Slices ![0, 1216] S2048x64
  inb_S28x64x64_S1x64x64_19_0_0 : ∀ a, (![19, 0, 0] : Fin 3 → Nat) a + S1x64x64.size a ≤ S28x64x64.size a
  inb_S28x2048x64_S1x2048x64_19_0_0 : ∀ a, (![19, 0, 0] : Fin 3 → Nat) a + S1x2048x64.size a ≤ S28x2048x64.size a
  slices_S2048x1792_o0_1280_S2048x64 : S2048x1792.Slices ![0, 1280] S2048x64
  inb_S28x64x64_S1x64x64_20_0_0 : ∀ a, (![20, 0, 0] : Fin 3 → Nat) a + S1x64x64.size a ≤ S28x64x64.size a
  inb_S28x2048x64_S1x2048x64_20_0_0 : ∀ a, (![20, 0, 0] : Fin 3 → Nat) a + S1x2048x64.size a ≤ S28x2048x64.size a
  slices_S2048x1792_o0_1344_S2048x64 : S2048x1792.Slices ![0, 1344] S2048x64
  inb_S28x64x64_S1x64x64_21_0_0 : ∀ a, (![21, 0, 0] : Fin 3 → Nat) a + S1x64x64.size a ≤ S28x64x64.size a
  inb_S28x2048x64_S1x2048x64_21_0_0 : ∀ a, (![21, 0, 0] : Fin 3 → Nat) a + S1x2048x64.size a ≤ S28x2048x64.size a
  slices_S2048x1792_o0_1408_S2048x64 : S2048x1792.Slices ![0, 1408] S2048x64
  inb_S28x64x64_S1x64x64_22_0_0 : ∀ a, (![22, 0, 0] : Fin 3 → Nat) a + S1x64x64.size a ≤ S28x64x64.size a
  inb_S28x2048x64_S1x2048x64_22_0_0 : ∀ a, (![22, 0, 0] : Fin 3 → Nat) a + S1x2048x64.size a ≤ S28x2048x64.size a
  slices_S2048x1792_o0_1472_S2048x64 : S2048x1792.Slices ![0, 1472] S2048x64
  inb_S28x64x64_S1x64x64_23_0_0 : ∀ a, (![23, 0, 0] : Fin 3 → Nat) a + S1x64x64.size a ≤ S28x64x64.size a
  inb_S28x2048x64_S1x2048x64_23_0_0 : ∀ a, (![23, 0, 0] : Fin 3 → Nat) a + S1x2048x64.size a ≤ S28x2048x64.size a
  slices_S2048x1792_o0_1536_S2048x64 : S2048x1792.Slices ![0, 1536] S2048x64
  inb_S28x64x64_S1x64x64_24_0_0 : ∀ a, (![24, 0, 0] : Fin 3 → Nat) a + S1x64x64.size a ≤ S28x64x64.size a
  inb_S28x2048x64_S1x2048x64_24_0_0 : ∀ a, (![24, 0, 0] : Fin 3 → Nat) a + S1x2048x64.size a ≤ S28x2048x64.size a
  slices_S2048x1792_o0_1600_S2048x64 : S2048x1792.Slices ![0, 1600] S2048x64
  inb_S28x64x64_S1x64x64_25_0_0 : ∀ a, (![25, 0, 0] : Fin 3 → Nat) a + S1x64x64.size a ≤ S28x64x64.size a
  inb_S28x2048x64_S1x2048x64_25_0_0 : ∀ a, (![25, 0, 0] : Fin 3 → Nat) a + S1x2048x64.size a ≤ S28x2048x64.size a
  slices_S2048x1792_o0_1664_S2048x64 : S2048x1792.Slices ![0, 1664] S2048x64
  inb_S28x64x64_S1x64x64_26_0_0 : ∀ a, (![26, 0, 0] : Fin 3 → Nat) a + S1x64x64.size a ≤ S28x64x64.size a
  inb_S28x2048x64_S1x2048x64_26_0_0 : ∀ a, (![26, 0, 0] : Fin 3 → Nat) a + S1x2048x64.size a ≤ S28x2048x64.size a
  slices_S2048x1792_o0_1728_S2048x64 : S2048x1792.Slices ![0, 1728] S2048x64
  inb_S28x64x64_S1x64x64_27_0_0 : ∀ a, (![27, 0, 0] : Fin 3 → Nat) a + S1x64x64.size a ≤ S28x64x64.size a
  inb_S28x2048x64_S1x2048x64_27_0_0 : ∀ a, (![27, 0, 0] : Fin 3 → Nat) a + S1x2048x64.size a ≤ S28x2048x64.size a
  dot_S2048x64_S1792x64_S2048x1792_1_1_0_0_n_n_wf : DotDims.WF S2048x64 S1792x64 S2048x1792 [1] [1] [0] [0] [] []
  dot_S2048x64_S64x64_S2048x64_1_1_0_0_n_n_wf : DotDims.WF S2048x64 S64x64 S2048x64 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S2048x64.size a
  hwx0_0 : ∀ i : grid0.Coords, EltTy.bits .f32 = 32 ∨ (Rect.block (s := S2048x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x64.size a ≤ S50176x64.size a
  hwx0_1 : ∀ i : grid0.Coords, EltTy.bits .f32 = 32 ∨ (Rect.block (s := S50176x64) S1792x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S28x64x64.size a ≤ S784x64x64.size a
  hwx0_2 : ∀ i : grid0.Coords, EltTy.bits .f32 = 32 ∨ (Rect.block (s := S784x64x64) S28x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S28x2048x64.size a ≤ S784x2048x64.size a
  hwx0_3 : ∀ i : grid0.Coords, EltTy.bits .f32 = 32 ∨ (Rect.block (s := S784x2048x64) S28x2048x64.size (cc0_transform_3 i) (hinb0_3 i)).WholeWords (EltTy.packing .f32)

variable [Facts₀]

def dot_S2048x64_S1792x64_S2048x1792_1_1_0_0_n_n : DotDims S2048x64 S1792x64 S2048x1792 where
  lhsContracting := [1]
  rhsContracting := [1]
  lhsNonContracting := [0]
  rhsNonContracting := [0]
  lhsBatch := []
  rhsBatch := []
  wf := dot_S2048x64_S1792x64_S2048x1792_1_1_0_0_n_n_wf
def dot_S2048x64_S64x64_S2048x64_1_1_0_0_n_n : DotDims S2048x64 S64x64 S2048x64 where
  lhsContracting := [1]
  rhsContracting := [1]
  lhsNonContracting := [0]
  rhsNonContracting := [0]
  lhsBatch := []
  rhsBatch := []
  wf := dot_S2048x64_S64x64_S2048x64_1_1_0_0_n_n_wf

abbrev win0_0 : Pipeline.Window sig grid0 :=
  Pipeline.Window.ofSpec (Memref.whole main_v10) S2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1792x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S28x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S28x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048 : Shape := ⟨1, ![2048]⟩
abbrev S1x32 : Shape := ⟨2, ![1, 32]⟩
abbrev S50176x64 : Shape := ⟨2, ![50176, 64]⟩
abbrev S784x64x64 : Shape := ⟨3, ![784, 64, 64]⟩
abbrev S2048x1 : Shape := ⟨2, ![2048, 1]⟩
abbrev S_ : Shape := ⟨0, ![]⟩
abbrev S32 : Shape := ⟨1, ![32]⟩
abbrev S2048x32 : Shape := ⟨2, ![2048, 32]⟩
abbrev S2048x64 : Shape := ⟨2, ![2048, 64]⟩
abbrev S50176x2048 : Shape := ⟨2, ![50176, 2048]⟩
abbrev S784x64x2048 : Shape := ⟨3, ![784, 64, 2048]⟩
abbrev S784x2048x64 : Shape := ⟨3, ![784, 2048, 64]⟩

abbrev nBuf : Space → Nat
  | .hbm => 21
  | .vmem => 0
  | .smem => 0
  | _ => 0

abbrev bufTy : (tb : Table) → Fin (tcTables nBuf tb) → BufTy
  | .hbm, ⟨0, _⟩ => ⟨S2048, .f32⟩
  | .hbm, ⟨1, _⟩ => ⟨S1x32, .f32⟩
  | .hbm, ⟨2, _⟩ => ⟨S50176x64, .f32⟩
  | .hbm, ⟨3, _⟩ => ⟨S784x64x64, .f32⟩
  | .hbm, ⟨4, _⟩ => ⟨S2048x1, .f32⟩
  | .hbm, ⟨5, _⟩ => ⟨S_, .f32⟩
  | .hbm, ⟨6, _⟩ => ⟨S2048x1, .f32⟩
  | .hbm, ⟨7, _⟩ => ⟨S2048x1, .f32⟩
  | .hbm, ⟨8, _⟩ => ⟨S32, .f32⟩
  | .hbm, ⟨9, _⟩ => ⟨S1x32, .f32⟩
  | .hbm, ⟨10, _⟩ => ⟨S2048x32, .f32⟩
  | .hbm, ⟨11, _⟩ => ⟨S2048x32, .f32⟩
  | .hbm, ⟨12, _⟩ => ⟨S2048x32, .f32⟩
  | .hbm, ⟨13, _⟩ => ⟨S2048x32, .f32⟩
  | .hbm, ⟨14, _⟩ => ⟨S2048x32, .f32⟩
  | .hbm, ⟨15, _⟩ => ⟨S2048x64, .f32⟩
  | .hbm, ⟨16, _⟩ => ⟨S50176x2048, .f32⟩
  | .hbm, ⟨17, _⟩ => ⟨S50176x2048, .f32⟩
  | .hbm, ⟨18, _⟩ => ⟨S784x64x2048, .f32⟩
  | .hbm, ⟨19, _⟩ => ⟨S784x64x2048, .f32⟩
  | .hbm, ⟨20, _⟩ => ⟨S784x2048x64, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  bcast_S_S2048x1 : S_.BroadcastsInDim S2048x1 (![] : Fin 0 → Fin S2048x1.rank)
  shapeCasts_S1x32_S32 : S1x32.ShapeCasts S32
  bcast_S32_S1x32_1 : S32.BroadcastsInDim S1x32 (![1] : Fin 1 → Fin S1x32.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  concatenates_S2048x32_S2048x32_S2048x64_d1 : Shape.Concatenates [S2048x32, S2048x32] S2048x64 1
  shapeCasts_S50176x2048_S784x64x2048 : S50176x2048.ShapeCasts S784x64x2048
  transposes_S784x64x2048_S784x2048x64_0_2_1 : S784x64x2048.Transposes [0, 2, 1] S784x2048x64
  dot_S50176x64_S2048x64_S50176x2048_1_1_0_0_n_n_wf : DotDims.WF S50176x64 S2048x64 S50176x2048 [1] [1] [0] [0] [] []
  dot_S784x64x64_S784x64x2048_S784x64x2048_2_1_1_2_0_0_wf : DotDims.WF S784x64x64 S784x64x2048 S784x64x2048 [2] [1] [1] [2] [0] [0]

variable [Facts₀]

def dot_S50176x64_S2048x64_S50176x2048_1_1_0_0_n_n : DotDims S50176x64 S2048x64 S50176x2048 where
  lhsContracting := [1]
  rhsContracting := [1]
  lhsNonContracting := [0]
  rhsNonContracting := [0]
  lhsBatch := []
  rhsBatch := []
  wf := dot_S50176x64_S2048x64_S50176x2048_1_1_0_0_n_n_wf
def dot_S784x64x64_S784x64x2048_S784x64x2048_2_1_1_2_0_0 : DotDims S784x64x64 S784x64x2048 S784x64x2048 where
  lhsContracting := [2]
  rhsContracting := [1]
  lhsNonContracting := [1]
  rhsNonContracting := [2]
  lhsBatch := [0]
  rhsBatch := [0]
  wf := dot_S784x64x64_S784x64x2048_S784x64x2048_2_1_1_2_0_0_wf

class Facts : Prop extends Facts₀ where

variable [Facts]
-- ==== Proof.Spec.lean ====
/-
  What both programs compute, as one function, and how a block of it sits in the whole.

  A feature matrix `feat` [2048, 64] (one row per query point q), first-layer weights `w1` [R, 64] (one row per hidden
  unit) and second-layer weights `w2` [Gn, 64, 64] (one 64 × 64 matrix per group) give, for group g, query q and output
  parameter p,

      out(g, q, p) = Σₙ tanh( Σ_f feat(q, f) · w1(64 g + n, f) ) · w2(g, p, n)

  — group g owns the 64 consecutive hidden units 64 g … 64 g + 63, and mixes them with its own matrix. The sums are over
  the extended reals and `tanh` is the ideal instance's (−1 and 1 at the infinities).

  `groupMix` is stated for any number of groups Gn and any number R ≥ 64 · Gn of hidden rows, so that the whole result
  (784 groups over 50176 rows) and what one grid point of the kernel produces (28 groups over the 1792 rows it was handed)
  are instances of the same definition. `groupMix_block` is the relation between them: grid point t is handed rows
  1792 t … of `w1` and groups 28 t … of `w2`, and its 28 groups are groups 28 t … 28 t + 27 of the whole, because
  1792 t + (64 g + n) = 64 (28 t + g) + n.
-/
import Idealize.ShloMosaic.Lib.ValueIdx
import Idealize.ShloMosaic.PureOps.Ideal

noncomputable section

namespace Cert.Spec

open Idealize.ShloMosaic Idealize.ShloMosaic.ValueIdx

/-- Hidden unit `o` at query point `q`: `tanh` of the feature row against the unit's weight row. -/
def hiddenUnit {R : Nat} (feat : (⟨2, ![2048, 64]⟩ : Shape).Idx → EReal) (w1 : (⟨2, ![R, 64]⟩ : Shape).Idx → EReal)
    (q : Fin 2048) (o : Fin R) : EReal :=
  Ideal.tanh (∑ f : Fin 64, feat (ix2 q f) * w1 (ix2 o f))

/-- The row of `w1` that holds hidden unit `n` of group `g`: groups own 64 consecutive rows. -/
def unitRow {Gn R : Nat} (hR : Gn * 64 ≤ R) (g : Fin Gn) (n : Fin 64) : Fin R :=
  ⟨g.val * 64 + n.val, by have := g.isLt; have := n.isLt; omega⟩

theorem unitRow_val {Gn R : Nat} (hR : Gn * 64 ≤ R) (g : Fin Gn) (n : Fin 64) :
    (unitRow hR g n).val = g.val * 64 + n.val := rfl

/-- The grouped two-layer map: entry (g, q, p) mixes group g's 64 hidden units at q with row p of the group's matrix. -/
def groupMix {Gn R : Nat} (hR : Gn * 64 ≤ R) (feat : (⟨2, ![2048, 64]⟩ : Shape).Idx → EReal)
    (w1 : (⟨2, ![R, 64]⟩ : Shape).Idx → EReal) (w2 : (⟨3, ![Gn, 64, 64]⟩ : Shape).Idx → EReal) :
    (⟨3, ![Gn, 2048, 64]⟩ : Shape).Idx → EReal :=
  fun i => ∑ n : Fin 64, hiddenUnit feat w1 (i 1) (unitRow hR (i 0) n) * w2 (ix3 (i 0) (i 2) n)

theorem rows_block : 28 * 64 ≤ 1792 := by decide
theorem rows_whole : 784 * 64 ≤ 50176 := by decide

/-- A BLOCK OF 28 GROUPS IS 28 GROUPS OF THE WHOLE. If `x1` is rows 1792 t … of `W1` and `x2` is groups 28 t … of `W2`
    (and the features are the same), then entry (g, q, p) of the block's map is entry (28 t + g, q, p) of the whole's. -/
theorem groupMix_block (feat : (⟨2, ![2048, 64]⟩ : Shape).Idx → EReal)
    (W1 : (⟨2, ![50176, 64]⟩ : Shape).Idx → EReal) (W2 : (⟨3, ![784, 64, 64]⟩ : Shape).Idx → EReal)
    (x0 : (⟨2, ![2048, 64]⟩ : Shape).Idx → EReal) (x1 : (⟨2, ![1792, 64]⟩ : Shape).Idx → EReal)
    (x2 : (⟨3, ![28, 64, 64]⟩ : Shape).Idx → EReal) (t : Nat)
    (h0 : x0 = feat)
    (h1 : ∀ (o : Fin 1792) (f : Fin 64) (o' : Fin 50176), o'.val = 1792 * t + o.val → x1 (ix2 o f) = W1 (ix2 o' f))
    (h2 : ∀ (g : Fin 28) (p n : Fin 64) (g' : Fin 784), g'.val = 28 * t + g.val → x2 (ix3 g p n) = W2 (ix3 g' p n))
    (y : (⟨3, ![28, 2048, 64]⟩ : Shape).Idx) (i : (⟨3, ![784, 2048, 64]⟩ : Shape).Idx)
    (hi0 : (i 0).val = 28 * t + (y 0).val) (hi1 : (i 1).val = (y 1).val) (hi2 : (i 2).val = (y 2).val) :
    groupMix rows_block x0 x1 x2 y = groupMix rows_whole feat W1 W2 i := by
  subst h0
  have e1 : (i 1 : Fin 2048) = y 1 := Fin.ext hi1
  have e2 : (i 2 : Fin 64) = y 2 := Fin.ext hi2
  unfold groupMix
  refine Finset.sum_congr rfl fun n _ => ?_
  rw [e1, e2, h2 (y 0) (y 2) n (i 0) hi0]
  refine congrArg (· * W2 (ix3 (i 0) (y 2) n)) ?_
  unfold hiddenUnit
  refine congrArg Ideal.tanh (Finset.sum_congr rfl fun f _ => ?_)
  rw [h1 (unitRow rows_block (y 0) n) f (unitRow rows_whole (i 0) n) (by
    show (i 0).val * 64 + n.val = 1792 * t + ((y 0).val * 64 + n.val)
    omega)]

end Cert.Spec

end
-- ==== Proof.LibMatmulNT.lean ====
/-
  A matrix product whose second operand is contracted on its LAST axis — an [M, K] matrix against an [N, K] one, the
  dimension numbers [1], [1], [0], [0] — read at an entry, at the ideal values.

  Entry (p, q) of the product is the sum over k of a(p, k) · b(q, k): row p of the first operand against row q of the
  second. It is stated for `DotDims.transposedRhs M K N`, the library's record of exactly these dimension numbers, at
  any extents; a printed record with the same six lists is that record (its well-formedness field is a proposition), so
  a certificate rewrites its own record to this one by `rfl` and cites the lemma.

  * `matmul_zero_apply`  — a `tpu.matmul` into the zero splat.
  * `dotGeneral_apply`   — the host's `dot_general`, whatever the schedule.

  Only the indexing is proved here: which entry of each operand the contraction index reaches. No law of the extended
  reals is used beyond `0 + x = x`, which the library's own reading of the accumulator already spends.
-/
import Idealize.ShloMosaic.Lib.ValueIdx
import Idealize.ShloMosaic.PureOps.Ideal.Laws

noncomputable section

namespace Cert.Lib.MatmulNT

open Idealize.ShloMosaic Idealize.ShloMosaic.ValueIdx

variable {M K N : Nat}

/-- The first operand's row coordinate is the entry's row. -/
theorem lhs_axis0 (i : (⟨2, ![M, N]⟩ : Shape).Idx) (k : (DotDims.transposedRhs M K N).contr.Idx) :
    ((DotDims.transposedRhs M K N).lhsIdx i k 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The first operand's column coordinate is the contraction index. -/
theorem lhs_axis1 (i : (⟨2, ![M, N]⟩ : Shape).Idx) (k : (DotDims.transposedRhs M K N).contr.Idx) :
    ((DotDims.transposedRhs M K N).lhsIdx i k 1).val = (k ⟨0, Nat.one_pos⟩).val :=
  (DotDims.transposedRhs M K N).lhsIdx_val_of_single rfl i k

/-- The second operand's row coordinate is the entry's COLUMN: this is where the operand is transposed. -/
theorem rhs_axis0 (i : (⟨2, ![M, N]⟩ : Shape).Idx) (k : (DotDims.transposedRhs M K N).contr.Idx) :
    ((DotDims.transposedRhs M K N).rhsIdx i k 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The second operand's column coordinate is the contraction index. -/
theorem rhs_axis1 (i : (⟨2, ![M, N]⟩ : Shape).Idx) (k : (DotDims.transposedRhs M K N).contr.Idx) :
    ((DotDims.transposedRhs M K N).rhsIdx i k 1).val = (k ⟨0, Nat.one_pos⟩).val :=
  (DotDims.transposedRhs M K N).rhsIdx_val_of_single rfl i k

/-- The sum over the record's contraction index, re-indexed by the one contracted coordinate: each operand is read on
    its own row, at column `k`. -/
theorem sum_contr {φ₁ φ₂ : FTy} (a : FVec Ideal ⟨2, ![M, K]⟩ φ₁) (b : FVec Ideal ⟨2, ![N, K]⟩ φ₂) (p : Fin M) (q : Fin N) :
    (∑ k : (DotDims.transposedRhs M K N).contr.Idx,
        a ((DotDims.transposedRhs M K N).lhsIdx (ix2 p q) k) * b ((DotDims.transposedRhs M K N).rhsIdx (ix2 p q) k))
      = ∑ k : Fin K, a (ix2 p k) * b (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k)
      = ix2 p k := funext fun c => Fin.ext (by
    match c with
    | ⟨0, _⟩ => exact lhs_axis0 _ _
    | ⟨1, _⟩ => exact (lhs_axis1 _ _).trans hk)
  have er : (DotDims.transposedRhs M K N).rhsIdx (ix2 p q) ((contrEquiv1 (DotDims.transposedRhs M K N) K rfl rfl).symm k)
      = ix2 q k := funext fun c => Fin.ext (by
    match c with
    | ⟨0, _⟩ => exact rhs_axis0 _ _
    | ⟨1, _⟩ => exact (rhs_axis1 _ _).trans hk)
  rw [el, er]

/-- A `tpu.matmul` with these dimension numbers into the zero splat: entry (p, q) is Σₖ a(p, k) · b(q, k). -/
theorem matmul_zero_apply {φ₁ φ₂ : FTy} (prec : Option ContractPrecision)
    (a : FVec Ideal ⟨2, ![M, K]⟩ φ₁) (b : FVec Ideal ⟨2, ![N, K]⟩ φ₂) (p : Fin M) (q : Fin N) :
    matmul (DotDims.transposedRhs M K N) prec a b (constant ⟨2, ![M, N]⟩ .f32 0x00000000#32) (ix2 p q)
      = ∑ k : Fin K, a (ix2 p k) * b (ix2 q k) := by
  simp only [matmul]
  rw [Ideal.matmul_constant_zero_apply]
  exact sum_contr a b p q

/-- The host's `dot_general` with these dimension numbers: the same sum, whatever the schedule. -/
theorem dotGeneral_apply {φ₁ φ₂ : FTy} (prec : Option ContractPrecision) (sched : HostSchedule)
    (a : FVec Ideal ⟨2, ![M, K]⟩ φ₁) (b : FVec Ideal ⟨2, ![N, K]⟩ φ₂) (p : Fin M) (q : Fin N) :
    FloatOps.dotGeneral (DotDims.transposedRhs M K N) prec sched a b (ix2 p q)
      = ∑ k : Fin K, a (ix2 p k) * b (ix2 q k) := by
  rw [Ideal.dotGeneral_apply]
  exact sum_contr a b p q

end Cert.Lib.MatmulNT

end
-- ==== Proof.Payload.lean ====
/-
  What the kernel body leaves in its output block, as the grouped two-layer map of the blocks it loaded.

  At one grid point the body holds the feature matrix x0 [2048, 64], 1792 rows x1 of the first-layer weights and 28
  group matrices x2 [28, 64, 64]. It forms ALL 1792 hidden units at once,

      H(q, o) = tanh( Σ_f x0(q, f) · x1(o, f) )            (a product with x1 transposed, then tanh),

  and then, for each of the 28 groups g, takes the 64 columns 64 g … 64 g + 63 of H, multiplies them by the transpose
  of the group's matrix x2(g, ·, ·) and stores the [2048, 64] result as slab g of the output block:

      slab_g(q, p) = Σₙ H(q, 64 g + n) · x2(g, p, n).

  The narrowing to bf16 before each product is the identity at the ideal values, and both products accumulate into a
  zero splat. So slab g, entry (q, p), is `Spec.groupMix` at (g, q, p) (`piece_agrees`), for every g by one lemma in g; the
  28 stores tile the block, so the block is `Spec.groupMix` of the three loaded blocks (`out_eq`).
-/
import proofs.«121613_j89979564851452_1_alg».proof.Proof.Gen.KernelIdeal.Frame
import proofs.«121613_j89979564851452_1_alg».proof.Proof.Spec
import proofs.«121613_j89979564851452_1_alg».proof.Proof.LibMatmulNT
import Idealize.ShloMosaic.Lib.Pipeline.Value
import Idealize.ShloMosaic.Lib.ValueLayout
import Idealize.ShloMosaic.Lib.ValueIdx

set_option maxRecDepth 16384

noncomputable section

namespace Cert.KernelIdeal.Body

open Cert.KernelIdeal Cert.KernelIdeal.Gen Idealize.ShloMosaic Idealize.ShloMosaic.ValueIdx Cert.Spec

theorem hz2 : (![0, 0] : Fin 2 → Nat) = fun _ => 0 := funext fun a => by fin_cases a <;> rfl

/-- Both of the body's products contract the LAST axis of both operands. -/
theorem dotH_eq : dot_S2048x64_S1792x64_S2048x1792_1_1_0_0_n_n = DotDims.transposedRhs 2048 64 1792 := rfl
theorem dotG_eq : dot_S2048x64_S64x64_S2048x64_1_1_0_0_n_n = DotDims.transposedRhs 2048 64 64 := rfl

/-- THE HIDDEN LAYER: entry (q, o) of what the body slices from is hidden unit o at query q. -/
theorem hidden_apply (x0 : Vec Ideal S2048x64 .f32) (x1 : Vec Ideal S1792x64 .f32) (q : Fin 2048) (o : Fin 1792) :
    k0_pay4 x0 x1 (ix2 q o) = hiddenUnit x0 x1 q o := by
  unfold k0_pay4 hiddenUnit
  show Ideal.tanh (matmul (F := Ideal) dot_S2048x64_S1792x64_S2048x1792_1_1_0_0_n_n none
      (truncf .bf16 (shapeCast S2048x64 x0 shapeCasts_S2048x64_S2048x64) bitsLt_bf16_f32) (truncf .bf16 x1 bitsLt_bf16_f32)
      (constant S2048x1792 .f32 0x00000000#32) (ix2 q o)) = _
  rw [dotH_eq, Cert.Lib.MatmulNT.matmul_zero_apply]
  simp only [truncf_apply, shapeCast_self]

/-- ONE GROUP'S SLAB, as the body computes it: columns `c0 … c0 + 63` of the hidden layer `h` against the transpose of the
    loaded group matrix `w`, with the unit axis the store wants. Every one of the body's 28 store payloads is this term
    at its own `c0` and its own loaded matrix. -/
def groupOut {F : FTy → Type} [FloatOps F] (c0 : Nat) (hs : S2048x1792.Slices ![0, c0] S2048x64)
    (h : FVec F S2048x1792 .bf16) (w : Vec F S1x64x64 .f32) : FVec F S1x2048x64 .f32 :=
  shapeCast S1x2048x64
    (matmul dot_S2048x64_S64x64_S2048x64_1_1_0_0_n_n none (extractStridedSlice S2048x64 ![0, c0] h hs)
      (truncf .bf16 (shapeCast S64x64 w shapeCasts_S1x64x64_S64x64) bitsLt_bf16_f32) (constant S2048x64 .f32 0x00000000#32))
    shapeCasts_S2048x64_S1x2048x64

/-- Its entry (·, q, p): Σₙ h(q, c0 + n) · w(0, p, n). `col n` names column `c0 + n` of `h`. -/
theorem groupOut_apply (c0 : Nat) (hs : S2048x1792.Slices ![0, c0] S2048x64) (h : FVec Ideal S2048x1792 .bf16)
    (w : Vec Ideal S1x64x64 .f32) (u : Fin 1) (q : Fin 2048) (p : Fin 64) (col : Fin 64 → Fin 1792)
    (hcol : ∀ n, (col n).val = c0 + n.val) :
    groupOut c0 hs h w (ix3 u q p) = ∑ n : Fin 64, h (ix2 q (col n)) * w (ix3 (0 : Fin 1) p n) := by
  unfold groupOut
  rw [shapeCast_ab_1ab_apply, dotG_eq, Cert.Lib.MatmulNT.matmul_zero_apply]
  refine Finset.sum_congr rfl fun n _ => ?_
  rw [extractStridedSlice_apply ![0, c0] h hs (ix2 q n) (ix2 q (col n)) (fun a => by
    match a with
    | ⟨0, _⟩ => show q.val = 0 + q.val; omega
    | ⟨1, _⟩ => show (col n).val = c0 + n.val; exact hcol n)]
  rw [truncf_apply, shapeCast_1ab_ab_apply]

/-- SLAB g AGREES WITH THE MAP. The payload stored through the rectangle at (g, 0, 0) — columns 64 g … of the hidden
    layer against the group matrix loaded through the rectangle at (g, 0, 0) — is `groupMix` of the three blocks, read
    where the store's rectangle puts each entry. -/
theorem piece_agrees (g c0 : Nat) (hg : g < 28) (hc : c0 = 64 * g) (hs : S2048x1792.Slices ![0, c0] S2048x64)
    (inb2 : ∀ a, (![g, 0, 0] : Fin 3 → Nat) a + S1x64x64.size a ≤ S28x64x64.size a)
    (inb3 : ∀ a, (![g, 0, 0] : Fin 3 → Nat) a + S1x2048x64.size a ≤ S28x2048x64.size a)
    (x0 : Vec Ideal S2048x64 .f32) (x1 : Vec Ideal S1792x64 .f32) (x2 : Vec Ideal S28x64x64 .f32) (x : S1x2048x64.Idx) :
    groupOut c0 hs (k0_pay4 x0 x1) (View.ld x2 (Rect.unit (s := S28x64x64) ![g, 0, 0] S1x64x64.size inb2)) x
      = groupMix rows_block x0 x1 x2 ((Rect.unit (s := S28x2048x64) ![g, 0, 0] S1x2048x64.size inb3).emb x) := by
  subst hc
  obtain ⟨u, q, p, rfl⟩ : ∃ (u : Fin 1) (q : Fin 2048) (p : Fin 64), x = ix3 u q p := ⟨x 0, x 1, x 2, eq_ix3 x⟩
  have hu : u.val = 0 := by omega
  rw [groupOut_apply (64 * g) hs _ _ u q p (fun n => ⟨64 * g + n.val, by have := n.isLt; omega⟩) (fun n => rfl)]
  have E0 : (((Rect.unit (s := S28x2048x64) ![g, 0, 0] S1x2048x64.size inb3).emb (ix3 u q p)) 0).val = g := by
    show g + 1 * u.val = g; omega
  have E1 : (((Rect.unit (s := S28x2048x64) ![g, 0, 0] S1x2048x64.size inb3).emb (ix3 u q p)) 1).val = q.val := by
    show 0 + 1 * q.val = q.val; omega
  have E2 : (((Rect.unit (s := S28x2048x64) ![g, 0, 0] S1x2048x64.size inb3).emb (ix3 u q p)) 2).val = p.val := by
    show 0 + 1 * p.val = p.val; omega
  generalize (Rect.unit (s := S28x2048x64) ![g, 0, 0] S1x2048x64.size inb3).emb (ix3 u q p) = E at E0 E1 E2 ⊢
  have e0 : (E 0 : Fin 28) = ⟨g, hg⟩ := Fin.ext E0
  have e1 : (E 1 : Fin 2048) = q := Fin.ext E1
  have e2 : (E 2 : Fin 64) = p := Fin.ext E2
  unfold groupMix
  rw [e0, e1, e2]
  refine Finset.sum_congr rfl fun n _ => ?_
  rw [hidden_apply]
  have hrow : (⟨64 * g + n.val, by have := n.isLt; omega⟩ : Fin 1792) = unitRow rows_block ⟨g, hg⟩ n :=
    Fin.ext (by show 64 * g + n.val = g * 64 + n.val; omega)
  have hld : View.ld x2 (Rect.unit (s := S28x64x64) ![g, 0, 0] S1x64x64.size inb2) (ix3 (0 : Fin 1) p n)
      = x2 (ix3 (⟨g, hg⟩ : Fin 28) p n) := by
    show x2 ((Rect.unit (s := S28x64x64) ![g, 0, 0] S1x64x64.size inb2).idx (ix3 (0 : Fin 1) p n)) = _
    refine congrArg x2 (funext fun a => Fin.ext ?_)
    match a with
    | ⟨0, _⟩ => show g + 1 * 0 = g; omega
    | ⟨1, _⟩ => show 0 + 1 * p.val = p.val; omega
    | ⟨2, _⟩ => show 0 + 1 * n.val = n.val; omega
  rw [hrow, hld]
  rfl

/-- THE BLOCK. The body's 28 stores tile the output block, and each stores the slab of `groupMix` its rectangle names:
    the block the body leaves is `groupMix` of the blocks it loaded. -/
theorem out_eq (x0 : Vec Ideal S2048x64 .f32) (x1 : Vec Ideal S1792x64 .f32) (x2 : Vec Ideal S28x64x64 .f32) :
    out0_3 x0 x1 x2 = groupMix rows_block x0 x1 x2 := by
  funext y
  unfold out0_3
  simp only [View.ld_unit_zero (S := S2048x64) hz2, View.ld_unit_zero (S := S1792x64) hz2]
  refine View.canon_apply_of_pieces (Val := Elt Ideal) (S := S28x2048x64) (e := .f32) (groupMix rows_block x0 x1 x2) _ ?_ y
    (cover0_3 _ _ _ _ _ _ _ _ _ _ _ _ _ _ _ _ _ _ _ _ _ _ _ _ _ _ _ _ y)
  intro pc hpc
  simp only [List.mem_cons, List.mem_nil_iff, or_false] at hpc
  rcases hpc with rfl | rfl | rfl | rfl | rfl | rfl | rfl | rfl | rfl | rfl | rfl | rfl | rfl | rfl | rfl | rfl | rfl
    | rfl | rfl | rfl | rfl | rfl | rfl | rfl | rfl | rfl | rfl | rfl
  all_goals
    intro x
    exact piece_agrees _ _ (by decide) (by decide) (by decide) (by decide) (by decide) x0 x1 x2 x

end Cert.KernelIdeal.Body

end
-- ==== Proof.Blocks.lean ====
/-
  From what each grid point writes back to the whole result array.

  The grid has 28 points. Point t is handed the whole feature matrix, rows 1792 t … 1792 t + 1791 of the first-layer
  weights, and groups 28 t … 28 t + 27 of the second-layer weights; it writes back groups 28 t … 28 t + 27 of the result.
  (The index maps are the printed ones, decided over the 28 points: `idx_facts`.)

  By `Body.out_eq` the block it writes is `Spec.groupMix` of its three input blocks, and by `Spec.groupMix_block` that is
  the corresponding block of `Spec.groupMix` of the three whole arrays (`flushed_eq`). Group g of the result lies in
  point g / 28's block, so the 28 blocks cover the array (`covered`) and the array ends holding `Spec.groupMix` of the
  feature matrix and the two weight arguments (`final`, `run`).
-/
import proofs.«121613_j89979564851452_1_alg».proof.Proof.Gen.KernelIdeal.Value
import proofs.«121613_j89979564851452_1_alg».proof.Proof.Payload
import Idealize.ShloMosaic.Lib.Pipeline.Value

set_option maxRecDepth 16384

noncomputable section

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (ρ : Dev nD → PrngReg)

/-- The printed index maps at grid point t: the features' block never moves; the two weight windows and the result
    window move one block along their first axis per point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Every point is handed the whole feature matrix. -/
theorem feat_blk (c : Dev nD) (t : Fin cfg0.N) : (iblk m c 0 t : Vec Ideal S2048x64 .f32) = V m c main_v10 := by
  obtain ⟨a0, a1, -⟩ := idx_facts t
  funext y
  show V m c main_v10 (((cfg0.win 0).blk t).view.emb y) = V m c main_v10 y
  refine congrArg (V m c main_v10) (funext fun a => Fin.ext ?_)
  match a with
  | ⟨0, _⟩ => show win0_0.index t (0 : Fin 2) * 2048 + 1 * (y 0).val = (y 0).val; rw [a0]; omega
  | ⟨1, _⟩ => show win0_0.index t (1 : Fin 2) * 64 + 1 * (y 1).val = (y 1).val; rw [a1]; omega

/-- Point t's first-layer block is rows 1792 t … of the argument. -/
theorem w1_blk (c : Dev nD) (t : Fin cfg0.N) (o : Fin 1792) (f : Fin 64) (o' : Fin 50176)
    (ho : o'.val = 1792 * t.val + o.val) :
    (iblk m c 1 t : Vec Ideal S1792x64 .f32) (ix2 o f) = V m c main_arg2 (ix2 o' f) := by
  obtain ⟨-, -, b0, b1, -⟩ := idx_facts t
  show V m c main_arg2 (((cfg0.win 1).blk t).view.emb (ix2 o f)) = V m c main_arg2 (ix2 o' f)
  refine congrArg (V m c main_arg2) (funext fun a => Fin.ext ?_)
  match a with
  | ⟨0, _⟩ => show win0_1.index t (0 : Fin 2) * 1792 + 1 * o.val = o'.val; rw [b0, ho]; omega
  | ⟨1, _⟩ => show win0_1.index t (1 : Fin 2) * 64 + 1 * f.val = f.val; rw [b1]; omega

/-- Point t's second-layer block is groups 28 t … of the argument. -/
theorem w2_blk (c : Dev nD) (t : Fin cfg0.N) (g : Fin 28) (p n : Fin 64) (g' : Fin 784)
    (hg : g'.val = 28 * t.val + g.val) :
    (iblk m c 2 t : Vec Ideal S28x64x64 .f32) (ix3 g p n) = V m c main_arg3 (ix3 g' p n) := by
  obtain ⟨-, -, -, -, c0, c1, c2, -⟩ := idx_facts t
  show V m c main_arg3 (((cfg0.win 2).blk t).view.emb (ix3 g p n)) = V m c main_arg3 (ix3 g' p n)
  refine congrArg (V m c main_arg3) (funext fun a => Fin.ext ?_)
  match a with
  | ⟨0, _⟩ => show win0_2.index t (0 : Fin 3) * 28 + 1 * g.val = g'.val; rw [c0, hg]; omega
  | ⟨1, _⟩ => show win0_2.index t (1 : Fin 3) * 64 + 1 * p.val = p.val; rw [c1]; omega
  | ⟨2, _⟩ => show win0_2.index t (2 : Fin 3) * 64 + 1 * n.val = n.val; rw [c2]; omega

/-- The result array's value: the grouped two-layer map of the feature matrix and the two weight arrays, as the
    region finds them. -/
abbrev result (c : Dev nD) : S784x2048x64.Idx → EReal :=
  groupMix rows_whole (V m c main_v10) (V m c main_arg2) (V m c main_arg3)

/-- WHAT POINT t WRITES BACK is block t of `result`. -/
theorem flushed_eq (c : Dev nD) (t : Fin cfg0.N) :
    (dats m 0 c).flushed 3 t = ((cfg0.win 3).blk t).view.read (Elt Ideal) (result m c) := by
  rw [flushed3, out_eq]
  obtain ⟨-, -, -, -, -, -, -, d0, d1, d2⟩ := idx_facts t
  funext y
  show groupMix rows_block (iblk m c 0 t) (iblk m c 1 t) (iblk m c 2 t) y
    = groupMix rows_whole (V m c main_v10) (V m c main_arg2) (V m c main_arg3) (((cfg0.win 3).blk t).view.emb y)
  exact groupMix_block (V m c main_v10) (V m c main_arg2) (V m c main_arg3) (iblk m c 0 t) (iblk m c 1 t) (iblk m c 2 t)
    t.val (feat_blk m c t) (fun o f o' ho => w1_blk m c t o f o' ho) (fun g p n g' hg => w2_blk m c t g p n g' hg) y _
    (by show win0_3.index t (0 : Fin 3) * 28 + 1 * (y 0).val = 28 * t.val + (y 0).val; rw [d0]; omega)
    (by show win0_3.index t (1 : Fin 3) * 2048 + 1 * (y 1).val = (y 1).val; rw [d1]; omega)
    (by show win0_3.index t (2 : Fin 3) * 64 + 1 * (y 2).val = (y 2).val; rw [d2]; omega)

/-- An index of the result array is in point t's block iff each coordinate is in the block's range on its axis. -/
theorem mem_blk (t : Fin cfg0.N) (i : S784x2048x64.Idx) :
    i ∈ ((cfg0.win 3).blk t).view.set ↔ ∀ a : Fin 3, win0_3.index t a * S28x2048x64.size a ≤ (i a).val
      ∧ (i a).val < win0_3.index t a * S28x2048x64.size a + S28x2048x64.size a := by
  show i ∈ ((View.whole main_v11).slice (win0_3.rect t)).set ↔ _
  rw [View.set_slice_whole, Rect.mem_set_unit]
  exact Iff.rfl

/-- The point whose block holds group g: g / 28. -/
def pointOf (i : S784x2048x64.Idx) : Fin cfg0.N :=
  ⟨(i 0).val / 28, by have h0 : (i 0).val < 784 := (i 0).isLt; rw [show cfg0.N = 28 from N_0]; omega⟩

/-- THE BLOCKS COVER THE ARRAY: every index is in the block of the point that owns its group. -/
theorem covered (i : S784x2048x64.Idx) :
    ∃ t : Fin cfg0.N, (cfg0.win 3).flush t = true ∧ i ∈ ((cfg0.win 3).blk t).view.set := by
  have h0 : (i 0).val < 784 := (i 0).isLt
  have h1 : (i 1).val < 2048 := (i 1).isLt
  have h2 : (i 2).val < 64 := (i 2).isLt
  refine ⟨pointOf i, flush0_3 _, ?_⟩
  obtain ⟨-, -, -, -, -, -, -, d0, d1, d2⟩ := idx_facts (pointOf i)
  have dv : (pointOf i).val = (i 0).val / 28 := rfl
  rw [mem_blk]
  intro a
  match a with
  | ⟨0, _⟩ =>
    show win0_3.index (pointOf i) (0 : Fin 3) * 28 ≤ (i 0).val ∧ (i 0).val < win0_3.index (pointOf i) (0 : Fin 3) * 28 + 28
    rw [d0, dv]; omega
  | ⟨1, _⟩ =>
    show win0_3.index (pointOf i) (1 : Fin 3) * 2048 ≤ (i 1).val ∧ (i 1).val < win0_3.index (pointOf i) (1 : Fin 3) * 2048 + 2048
    rw [d1]; omega
  | ⟨2, _⟩ =>
    show win0_3.index (pointOf i) (2 : Fin 3) * 64 ≤ (i 2).val ∧ (i 2).val < win0_3.index (pointOf i) (2 : Fin 3) * 64 + 64
    rw [d2]; omega

/-- THE ARRAY after the run is `result`. -/
theorem final (c : Dev nD) : (dats m 0 c).arrAt 3 cfg0.N = result m c :=
  (dats m 0 c).arrAt_eq_of_cover 3 (result m c) (fun t _ => flushed_eq m c t) covered

/-- The kernel's run, read: the result array at the grouped two-layer map of the feature matrix (as the region finds
    it) and the two weight arguments; the arguments unchanged. -/
theorem run : θ_run defs (onTc (τ := τ) (main (F := Ideal))) ⟨m, fun _ => 0, ρ⟩ fun r => ∀ c : Dev nD,
      r.2.mem ((c : Thread nD τ).loc main_v11)
        = groupMix rows_whole (V m c main_v10) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      show groupMix rows_whole (V m c main_v10) (V m c main_arg2) (V m c main_arg3) = _
      rw [V_main_arg2, V_main_arg3])), (h c).2⟩)
    (run_blocks m ρ)

end Cert.KernelIdeal.Whole

end
-- ==== Proof.Reference.lean ====
/-
  The reference computes the grouped two-layer map.

  Read one operation at a time (the generated stage lemmas), entry (g, q, p) of the reference's result is

      transpose  →  entry (g, p, q) of the batched product  =  Σₙ W2(g, p, n) · T(g, n, q),
      reshape    →  T(g, n, q) is entry (64 g + n, q) of the [50176, 2048] matrix  tanh(W1 · featᵀ),
      product    →  that entry is  tanh( Σ_f W1(64 g + n, f) · feat(q, f) ).

  The reshape's row-major arithmetic is ((64 g + n) · 2048 + q) / 2048 = 64 g + n and … % 2048 = q, since q < 2048. What
  is left differs from `Spec.groupMix` only in the ORDER OF THE FACTORS inside each sum — the reference multiplies
  weight · activation, the specification activation · weight — and multiplication of extended reals is commutative,
  at the infinities too. The host's `tanh` and the kernel's are the same function of an extended real.

  The feature matrix is left as the stage `val_main_v10` and never opened: both programs build it by the same host
  operations.
-/
import proofs.«121613_j89979564851452_1_alg».proof.Proof.Gen.ReferenceIdeal.Read
import proofs.«121613_j89979564851452_1_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.Spec

/-- Entry by entry, the reference's last stage is `groupMix` of its own feature stage and the two weight arguments. -/
theorem stage_apply (z : (⟨S2048, .f32⟩ : BufTy).Contents (Elt Ideal)) (co : (⟨S1x32, .f32⟩ : BufTy).Contents (Elt Ideal))
    (W1 : (⟨S50176x64, .f32⟩ : BufTy).Contents (Elt Ideal)) (W2 : (⟨S784x64x64, .f32⟩ : BufTy).Contents (Elt Ideal))
    (i : S784x2048x64.Idx) :
    val_main_v15 (F := Ideal) z co W1 W2 i = groupMix rows_whole (val_main_v10 (F := Ideal) z co) W1 W2 i := by
  rw [val_main_v15_apply, val_main_v14_apply]
  unfold groupMix
  refine Finset.sum_congr rfl fun n _ => ?_
  rw [val_main_v13_apply, val_main_v12_apply, val_main_v11_apply, mul_comm]
  have h2 : lidx_main_v14 (idx_main_v15 i) n = ix3 (i 0) (i 2) n := funext fun a => Fin.ext (by
    match a with
    | ⟨0, _⟩ => rfl
    | ⟨1, _⟩ => rfl
    | ⟨2, _⟩ => rfl)
  rw [h2]
  refine congrArg (· * W2 (ix3 (i 0) (i 2) n)) ?_
  unfold hiddenUnit
  show Ideal.tanh _ = Ideal.tanh _
  refine congrArg Ideal.tanh (Finset.sum_congr rfl fun f _ => ?_)
  have hq : (i 1).val < 2048 := (i 1).isLt
  have hl : lidx_main_v11 (idx_main_v13 (ridx_main_v14 (idx_main_v15 i) n)) f = ix2 (unitRow rows_whole (i 0) n) f :=
    funext fun a => Fin.ext (by
      match a with
      | ⟨0, _⟩ =>
        show (((i 0).val * 64 + n.val) * 2048 + (i 1).val) / 2048 = (i 0).val * 64 + n.val
        omega
      | ⟨1, _⟩ => rfl)
  have hr : ridx_main_v11 (idx_main_v13 (ridx_main_v14 (idx_main_v15 i) n)) f = ix2 (i 1) f :=
    funext fun a => Fin.ext (by
      match a with
      | ⟨0, _⟩ =>
        show (((i 0).val * 64 + n.val) * 2048 + (i 1).val) % 2048 = (i 1).val
        omega
      | ⟨1, _⟩ => rfl)
  rw [hl, hr, mul_comm]
  rfl

/-- The reference's last stage IS `groupMix` of the feature stage and the weights. -/
theorem stage_eq (z : (⟨S2048, .f32⟩ : BufTy).Contents (Elt Ideal)) (co : (⟨S1x32, .f32⟩ : BufTy).Contents (Elt Ideal))
    (W1 : (⟨S50176x64, .f32⟩ : BufTy).Contents (Elt Ideal)) (W2 : (⟨S784x64x64, .f32⟩ : BufTy).Contents (Elt Ideal)) :
    val_main_v15 (F := Ideal) z co W1 W2 = groupMix rows_whole (val_main_v10 (F := Ideal) z co) W1 W2 :=
  funext fun i => stage_apply z co W1 W2 i

end Cert.ReferenceIdeal.RefValue

end
-- ==== Proof.Features.lean ====
/-
  The two programs build the same feature matrix.

  Before its one kernel call the kernel's @main computes, by eleven host operations, the [2048, 64] matrix
  concat( cos(2π · z ⊗ coeff), sin(2π · z ⊗ coeff) ); the reference's @main starts with the same eleven operations on the
  same literals. So what the kernel's region finds in that buffer is the reference's feature stage of the same two
  arguments, term for term: nothing about cosine, sine or the constant is used.
-/
import proofs.«121613_j89979564851452_1_alg».proof.Proof.Gen.KernelIdeal.Frame
import proofs.«121613_j89979564851452_1_alg».proof.Proof.Gen.ReferenceIdeal.Read
import Idealize.ShloMosaic.Lib.StableHlo.Run

noncomputable section

namespace Cert.KernelIdeal.Features

open Cert.KernelIdeal Cert.KernelIdeal.Gen Idealize.ShloMosaic Idealize.ShloMosaic.TcCoe Idealize.SL.Sem
open Idealize.ShloMosaic.StableHlo

/-- The feature buffer as the kernel's region finds it is the reference's feature stage of the first two arguments. -/
theorem feat_eq (m : (ℓ : Loc nD τ sig) → Buf (Elt Ideal) ℓ) (c : Dev nD) :
    (V m c main_v10 : S2048x64.Idx → EReal)
      = Cert.ReferenceIdeal.Read.val_main_v10 (F := Ideal) (m ((c : Thread nD τ).loc main_arg0)) (m ((c : Thread nD τ).loc main_arg1)) := by
  dsimp only [V, hostOps0]
  after_results
  rfl

end Cert.KernelIdeal.Features

end
-- ==== Proof.lean ====
/- The proof of `Cert.Claim` (proofs.«121613_j89979564851452_1_alg».proof.Defs): the kernel — Fourier features on the
   host, then per grid point a 1792-unit hidden layer `tanh(feat · w1ᵀ)` and 28 grouped 64 × 64 mixes of its columns — against
   the reference's two einsums around a reshape, over the extended reals.

   Both compute, at result entry (g, q, p),

       Σₙ tanh( Σ_f feat(q, f) · W1(64 g + n, f) ) · W2(g, p, n),

   the function `Spec.groupMix` (Proof/Spec.lean). The kernel's side: each of the body's 28 stores leaves one group's slab
   of that function of the loaded blocks (Proof/Payload.lean, over Proof/LibMatmulNT.lean's reading of a product with the
   second operand transposed); a block of 28 groups is 28 groups of the whole, and the 28 grid points' blocks cover the
   784 groups (Proof/Blocks.lean). The reference's side: its stages read one at a time give the same sums with the
   factors of each product in the other order, and multiplication of extended reals commutes (Proof/Reference.lean).
   The feature matrix is the same host term in both programs and is never opened (Proof/Features.lean). No law that
   fails at an infinity is used, so the finiteness of the inputs is not needed for the values; the narrowing to bf16
   is the identity at the ideal values, so no idealization rule fired and `preserves` has nothing to state.

   The frames of the two kernel programs are the generated ones; the reference's is its generated run with the
   result dropped. -/
import proofs.«121613_j89979564851452_1_alg».proof.Defs
import proofs.«121613_j89979564851452_1_alg».proof.Proof.Gen.Kernel
import proofs.«121613_j89979564851452_1_alg».proof.Proof.Gen.Kernel.Skeleton
import proofs.«121613_j89979564851452_1_alg».proof.Proof.Gen.Kernel.Launch
import proofs.«121613_j89979564851452_1_alg».proof.Proof.Gen.Kernel.Points
import proofs.«121613_j89979564851452_1_alg».proof.Proof.Gen.Kernel.Frame
import proofs.«121613_j89979564851452_1_alg».proof.Proof.Gen.KernelIdeal
import proofs.«121613_j89979564851452_1_alg».proof.Proof.Gen.KernelIdeal.Skeleton
import proofs.«121613_j89979564851452_1_alg».proof.Proof.Gen.KernelIdeal.Launch
import proofs.«121613_j89979564851452_1_alg».proof.Proof.Gen.KernelIdeal.Points
import proofs.«121613_j89979564851452_1_alg».proof.Proof.Gen.KernelIdeal.Frame
import proofs.«121613_j89979564851452_1_alg».proof.Proof.Gen.ReferenceIdeal
import proofs.«121613_j89979564851452_1_alg».proof.Proof.Gen.Pre_finite_inputs
import proofs.«121613_j89979564851452_1_alg».proof.Proof.Gen.KernelIdeal.Value
import proofs.«121613_j89979564851452_1_alg».proof.Proof.Gen.ReferenceIdeal.Run
import proofs.«121613_j89979564851452_1_alg».proof.Proof.Gen.ReferenceIdeal.Read
import proofs.«121613_j89979564851452_1_alg».proof.Proof.Blocks
import proofs.«121613_j89979564851452_1_alg».proof.Proof.Reference
import proofs.«121613_j89979564851452_1_alg».proof.Proof.Features
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at `Spec.groupMix` of the feature matrix and the two weight arguments
    (`Whole.run`); the reference's ends at its last stage, which is the same function of its own feature stage and
    weights (`RefValue.stage_eq`); the arguments agree, and the two feature matrices are one term (`Features.feat_eq`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.stage_eq,
    (hagree c).1, (hagree c).2.1, (hagree c).2.2.1, (hagree c).2.2.2, Cert.KernelIdeal.Features.feat_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
